-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S65536x512 .f32) (main_arg1 : FVec F S512x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S65536x512 : Shape := ⟨2, ![65536, 512]⟩
abbrev S512x512 : Shape := ⟨2, ![512, 512]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512x512, .bf16⟩
  | .hbm, ⟨3, _⟩ => ⟨S65536x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S2048x512, .f32⟩
  | .local _ .vmem, ⟨4, _⟩ => ⟨S2048x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S65536x512.size a
  hwx0_2 : ∀ i : grid0.Coords, EltTy.bits .f32 = 32 ∨ (Rect.block (s := S65536x512) S2048x512.size (cc0_transform_2 i) (hinb0_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S65536x512_S512x512_S65536x512_1_0_0_1_n_n_wf : DotDims.WF S65536x512 S512x512 S65536x512 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf

class Facts : Prop extends Facts₀ where

variable [Facts]
-- ==== Proof.RowsTimesMatrix.lean ====
/-
  The function both programs compute. The input `x` is a 65536 × 512 array of extended reals and `p` a
  512 × 512 matrix; entry (r, q) of the result is the inner product of row r of `x` with column q of `p`,

      (x · p)(r, q) = ∑ k < 512, x(r, k) · p(k, q).

  Nothing is assumed of `p`: that it is a permutation matrix in the intended use plays no part, since the
  two programs are the same sum of the same products for every `p`, and a change of float format on the
  way (the kernel narrows both operands to bf16) is the identity on extended reals.
-/
import Idealize.ShloMosaic.PureOps.Ideal
import Idealize.ShloMosaic.Lib.ValueIdx

noncomputable section

namespace Cert.RowsTimesMatrix

open Idealize.ShloMosaic Idealize.ShloMosaic.ValueIdx

/-- Entry (r, q) of the product of an array of `R` rows of length 512 with a 512 × 512 matrix: the inner
    product of row r with column q. The number of rows is a parameter because the kernel forms the product a
    block of 2048 rows at a time while the reference forms it for all 65536 rows at once. -/
def entry {R : Nat} (x : (⟨2, ![R, 512]⟩ : Shape).Idx → EReal) (p : (⟨2, ![512, 512]⟩ : Shape).Idx → EReal)
    (r : Fin R) (q : Fin 512) : EReal :=
  ∑ k : Fin 512, x (ix2 r k) * p (ix2 k q)

/-- The whole product `x · p`, index by index. -/
def product (x : (⟨2, ![65536, 512]⟩ : Shape).Idx → EReal) (p : (⟨2, ![512, 512]⟩ : Shape).Idx → EReal) :
    (⟨2, ![65536, 512]⟩ : Shape).Idx → EReal :=
  fun i => entry x p (⟨(i 0).val, (i 0).isLt⟩ : Fin 65536) (⟨(i 1).val, (i 1).isLt⟩ : Fin 512)

/-- An entry depends on `x` only through the one row it reads and on `p` only through the one column: if row r
    of `x` is row r' of `x'` and column q of `p` is column q' of `p'`, the two entries agree. This is how a block
    of rows inherits its entries from the whole array. -/
theorem entry_congr {R R' : Nat} (x : (⟨2, ![R, 512]⟩ : Shape).Idx → EReal) (x' : (⟨2, ![R', 512]⟩ : Shape).Idx → EReal)
    (p p' : (⟨2, ![512, 512]⟩ : Shape).Idx → EReal) (r : Fin R) (r' : Fin R') (q q' : Fin 512)
    (hx : ∀ k : Fin 512, x (ix2 r k) = x' (ix2 r' k)) (hp : ∀ k : Fin 512, p (ix2 k q) = p' (ix2 k q')) :
    entry x p r q = entry x' p' r' q' :=
  Finset.sum_congr rfl fun k _ => by rw [hx k, hp k]

end Cert.RowsTimesMatrix

end
-- ==== Proof.BlockProduct.lean ====
/-
  What the kernel body computes on one block. The body loads a block `x0` of 2048 rows of `x` and the whole
  512 × 512 matrix `x1` (already narrowed to bf16 by the host), narrows `x0` to bf16, and multiplies the two on
  the matrix unit into a zero accumulator. Over the extended reals the narrowing is the identity and the zero
  accumulator adds nothing, so entry (r, q) of what the body stores is the inner product of row r of the block
  with column q of the matrix.
-/
import proofs.«431464_j31576599561039_3_alg».proof.Proof.Gen.KernelIdeal.Skeleton
import proofs.«431464_j31576599561039_3_alg».proof.Proof.RowsTimesMatrix
import Idealize.ShloMosaic.PureOps.Ideal.Laws
import Idealize.ShloMosaic.Lib.Pipeline.Value
import Idealize.ShloMosaic.Lib.ValueIdx

noncomputable section

namespace Cert.KernelIdeal.BlockProduct

open Cert.KernelIdeal Cert.KernelIdeal.Gen Idealize.ShloMosaic Idealize.ShloMosaic.ValueIdx
open Cert.RowsTimesMatrix

/-- The dimension numbers of the body's product: rows × contraction times contraction × columns. -/
abbrev dims := dot_S2048x512_S512x512_S2048x512_1_0_0_1_n_n

/-- The left operand is read at the output's row … -/
theorem lhs_row (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
/-- … and at the contraction position along its second axis; -/
theorem lhs_contr (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
/-- the right operand at the contraction position along its first axis … -/
theorem rhs_contr (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
/-- … and at the output's column. -/
theorem rhs_col (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The matrix unit's product of a 2048 × 512 block with a 512 × 512 matrix into the zero accumulator, at entry
    (r, q): the sum over the one contracted axis, re-indexed by its coordinate k < 512, of block(r, k) · matrix(k, q). -/
theorem matmul_entry (a : FVec Ideal S2048x512 .bf16) (b : FVec Ideal S512x512 .bf16) (r : Fin 2048) (q : Fin 512) :
    FloatOps.matmul dot_S2048x512_S512x512_S2048x512_1_0_0_1_n_n none a b (constant S2048x512 .f32 0x00000000#32) (ix2 r q)
      = ∑ k : Fin 512, a (ix2 r k) * b (ix2 k q) := by
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r q) ((contrEquiv1 dot_S2048x512_S512x512_S2048x512_1_0_0_1_n_n 512 rfl rfl).symm k) = ix2 r k := funext fun a => Fin.ext (by
    match a with
    | ⟨0, _⟩ => exact lhs_row _ _
    | ⟨1, _⟩ => exact (lhs_contr _ _).trans hk)
  have er : dot_S2048x512_S512x512_S2048x512_1_0_0_1_n_n.rhsIdx (ix2 r q) ((contrEquiv1 dot_S2048x512_S512x512_S2048x512_1_0_0_1_n_n 512 rfl rfl).symm k) = ix2 k q := funext fun a => Fin.ext (by
    match a with
    | ⟨0, _⟩ => exact (rhs_contr _ _).trans hk
    | ⟨1, _⟩ => exact rhs_col _ _)
  rw [el, er]

/-- What the body stores, at entry (r, q) of the block: the inner product of row r of the loaded block with
    column q of the loaded matrix (the narrowing of the block to bf16 and the matrix's identity reshape both
    leave every entry as it is). -/
theorem payload_entry (x0 : Vec Ideal S2048x512 .f32) (x1 : Vec Ideal S512x512 .bf16) (r : Fin 2048) (q : Fin 512) :
    k0_pay1 (F := Ideal) x0 x1 (ix2 r q) = entry x0 x1 r q := by
  unfold k0_pay1
  rw [shapeCast_self]
  exact matmul_entry (truncf .bf16 x0 bitsLt_bf16_f32) x1 r q

/-- The same at any index `j` of the block, its two coordinates read off `j`. -/
theorem payload_apply (x0 : Vec Ideal S2048x512 .f32) (x1 : Vec Ideal S512x512 .bf16) (j : S2048x512.Idx) :
    k0_pay1 (F := Ideal) x0 x1 j = entry x0 x1 (⟨(j 0).val, (j 0).isLt⟩ : Fin 2048) (⟨(j 1).val, (j 1).isLt⟩ : Fin 512) := by
  have hj : j = ix2 (⟨(j 0).val, (j 0).isLt⟩ : Fin 2048) (⟨(j 1).val, (j 1).isLt⟩ : Fin 512) :=
    funext fun a => by match a with | ⟨0, _⟩ => rfl | ⟨1, _⟩ => rfl
  exact (congrArg (k0_pay1 (F := Ideal) x0 x1) hj).trans (payload_entry x0 x1 _ _)

end Cert.KernelIdeal.BlockProduct

end
-- ==== Proof.KernelArray.lean ====
/-
  The kernel's output array after the run is the product `x · p` of its two arguments.

  The grid has 32 points. Point t stages rows 2048·t … 2048·t + 2047 of `x` (all 512 columns), the whole
  512 × 512 matrix — which the host has narrowed to bf16 before the call, the identity on extended reals, so the
  matrix the body loads is the argument `p` itself — and writes back rows 2048·t … 2048·t + 2047 of the output.
  Entry (r, q) of the block written at point t is the inner product of row r of the staged block of `x` with
  column q of the matrix, and row r of that block is row 2048·t + r of `x`: so the block written at t is block t
  of `x · p`. The 32 blocks of 2048 rows cover all 65536 rows (row R lies in block R / 2048), hence the array
  ends holding `x · p` everywhere.
-/
import proofs.«431464_j31576599561039_3_alg».proof.Proof.Gen.KernelIdeal.Value
import proofs.«431464_j31576599561039_3_alg».proof.Proof.BlockProduct
import Idealize.ShloMosaic.Lib.StableHlo.Run

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.RowsTimesMatrix Cert.KernelIdeal.BlockProduct

variable (m : (ℓ : Loc nD τ sig) → Buf (Elt Ideal) ℓ) (ρ : Dev nD → PrngReg)

theorem zero_offsets : (![0, 0] : Fin 2 → Nat) = fun _ => 0 := funext fun a => by fin_cases a <;> rfl

/-- The matrix the region finds in the host's bf16 copy is the argument `p` as launched: the one host operation
    before the call narrows `p` to bf16, which changes no extended real. -/
theorem matrix_as_launched (c : Dev nD) :
    (V m c main_v0 : S512x512.Idx → EReal) = m ((c : Thread nD τ).loc main_arg1) := by
  dsimp only [Gen.V, Gen.hostOps0]; after_results; rfl

/-- The block indices, decided over the 32 points: the block of `x` moves with the output's along the rows, both
    at block t; neither moves along the columns; the matrix's block stays at the origin. -/
theorem block_indices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every one of the 32 row blocks of the output is some point's. -/
theorem block_onto : ∀ b : Fin 32, ∃ t : Fin cfg0.N, win0_2.index t = ![b.val, 0] :=
  (by decide +kernel : ∀ b : Fin 32, ∃ t : Fin grid0.N, win0_2.index t = ![b.val, 0])

/-- WHAT POINT `t` WRITES BACK is block `t` of the product of the arrays as the region finds them. -/
theorem flushed_eq (c : Dev nD) (t : Fin cfg0.N) :
    (dats m 0 c).flushed 2 t = ((cfg0.win 2).blk t).view.read (Elt Ideal) (product (V m c main_arg0) (V m c main_v0)) := by
  rw [Value.flushed2]
  unfold out0_2
  rw [View.canon_unit_zero zero_offsets]
  simp only [View.ld_unit_zero (S := S2048x512) zero_offsets, View.ld_unit_zero (S := S512x512) zero_offsets]
  obtain ⟨e0, e1, e2, e3, e4⟩ := block_indices t
  funext j
  show k0_pay1 (F := Ideal) (iblk m c 0 t) (iblk m c 1 t) j = product (V m c main_arg0) (V m c main_v0) (((cfg0.win 2).blk t).view.emb j)
  refine (payload_apply (iblk m c 0 t) (iblk m c 1 t) j).trans ?_
  unfold product
  refine entry_congr (iblk m c 0 t) (V m c main_arg0) (iblk m c 1 t) (V m c main_v0) _ _ _ _ (fun k => ?_) (fun k => ?_)
  · -- row (j 0) of the staged block of `x` is the row of `x` the output's block puts entry `j` in
    show V m c main_arg0 (((cfg0.win 0).blk t).view.emb (ix2 (⟨(j 0).val, (j 0).isLt⟩ : Fin 2048) k)) = V m c main_arg0 _
    refine congrArg (V m c main_arg0) (funext fun a => Fin.ext ?_)
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 512 + 1 * k.val = k.val; omega
  · -- the staged matrix is the whole matrix, and the output's block keeps the column
    show V m c main_v0 (((cfg0.win 1).blk t).view.emb (ix2 k (⟨(j 1).val, (j 1).isLt⟩ : Fin 512))) = V m c main_v0 _
    refine congrArg (V m c main_v0) (funext fun a => Fin.ext ?_)
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega

/-- An index of the output array is in point `t`'s block iff each coordinate is in the block's range on its axis. -/
theorem mem_blk (t : Fin cfg0.N) (i : S65536x512.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v1).slice (win0_2.rect t)).set ↔ _
  rw [View.set_slice_whole, Rect.mem_set_unit]
  exact Iff.rfl

/-- Every index of the output array lies in the block of some point that writes back: row R in block R / 2048. -/
theorem covered (i : S65536x512.Idx) :
    ∃ t : Fin cfg0.N, (cfg0.win 2).flush t = true ∧ i ∈ ((cfg0.win 2).blk t).view.set := by
  have hi0 : (i 0).val < 65536 := (i 0).isLt
  have hi1 : (i 1).val < 512 := (i 1).isLt
  obtain ⟨t, ht⟩ := block_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- THE OUTPUT ARRAY after the run is the product of the two arguments as launched. -/
theorem final (c : Dev nD) :
    (dats m 0 c).arrAt 2 cfg0.N = product (m ((c : Thread nD τ).loc main_arg0)) (m ((c : Thread nD τ).loc main_arg1)) :=
  ((dats m 0 c).arrAt_eq_of_cover 2 (product (V m c main_arg0) (V m c main_v0)) (fun t _ => flushed_eq m c t) covered).trans
    (congrArg₂ product (V_main_arg0 m c) (matrix_as_launched m c))

/-- The kernel's run: every weakly fair execution ends with the output array at `x · p` and the arguments unchanged. -/
theorem run : θ_run defs (onTc (τ := τ) (main (F := Ideal))) ⟨m, fun _ => 0, ρ⟩ fun r => ∀ c : Dev nD,
      r.2.mem ((c : Thread nD τ).loc main_v1) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.ReferenceProduct.lean ====
/-
  The reference's one operation, a `dot_general` contracting the second axis of `x` with the first axis of the
  matrix, read over the extended reals: entry (r, q) of its result is the sum over k < 512 of x(r, k) · p(k, q),
  which is the product of the specification.
-/
import proofs.«431464_j31576599561039_3_alg».proof.Proof.Gen.ReferenceIdeal.Read
import proofs.«431464_j31576599561039_3_alg».proof.Proof.RowsTimesMatrix

noncomputable section

namespace Cert.ReferenceIdeal.RefProduct

open Cert.ReferenceIdeal Cert.ReferenceIdeal.Gen Cert.ReferenceIdeal.Read Idealize.ShloMosaic Idealize.ShloMosaic.ValueIdx
open Cert.RowsTimesMatrix

/-- The left operand's index at output index `i` and contraction coordinate `k` is (row of `i`, k) … -/
theorem left_index (i : S65536x512.Idx) (k : Fin 512) :
    lidx_main_v0 i k = ix2 (⟨(i 0).val, (i 0).isLt⟩ : Fin 65536) k :=
  funext fun a => by match a with | ⟨0, _⟩ => rfl | ⟨1, _⟩ => rfl
/-- … and the right operand's is (k, column of `i`). -/
theorem right_index (i : S65536x512.Idx) (k : Fin 512) :
    ridx_main_v0 i k = ix2 k (⟨(i 1).val, (i 1).isLt⟩ : Fin 512) :=
  funext fun a => by match a with | ⟨0, _⟩ => rfl | ⟨1, _⟩ => rfl

/-- The reference's result, as a function of its two arguments, is their product. -/
theorem dot_eq_product (x : FVec Ideal S65536x512 .f32) (p : FVec Ideal S512x512 .f32) :
    Host.dotGeneral (F := Ideal) dot_S65536x512_S512x512_S65536x512_1_0_0_1_n_n none x p = product x p := by
  show val_main_v0 (F := Ideal) x p = _
  funext i
  rw [val_main_v0_apply]
  unfold product entry
  exact Finset.sum_congr rfl fun k _ => by rw [left_index, right_index]

end Cert.ReferenceIdeal.RefProduct

end
-- ==== Proof.lean ====
/- The proof of `Cert.Claim`: the kernel and its reference both compute the product `x · p` of a 65536 × 512 array
   with a 512 × 512 matrix, entry (r, q) the sum over k < 512 of x(r, k) · p(k, q)
   (Proof/RowsTimesMatrix.lean).

   The kernel narrows `p` to bf16 on the host, then on a grid of 32 points multiplies a block of 2048 rows of
   `x`, narrowed to bf16, into that matrix on the matrix unit with a zero accumulator. Over the extended reals a
   change of float format is the identity and the zero accumulator adds nothing, so each block written back is
   the matching block of `x · p` (Proof/BlockProduct.lean), and the 32 blocks cover the array
   (Proof/KernelArray.lean). The reference is one `dot_general` over the same contracted axis, the same sum
   index by index (Proof/ReferenceProduct.lean). The two sides are the same sum of the same products in the same
   order, so no algebraic law and no finiteness of the inputs is used.

   The three frames are the generated frame runs (the reference's being its generated run with the result
   dropped); the idealization rewrote nothing, so `preserves` is trivial. -/
import proofs.«431464_j31576599561039_3_alg».proof.Defs
import proofs.«431464_j31576599561039_3_alg».proof.Proof.Gen.Kernel
import proofs.«431464_j31576599561039_3_alg».proof.Proof.Gen.Kernel.Skeleton
import proofs.«431464_j31576599561039_3_alg».proof.Proof.Gen.Kernel.Launch
import proofs.«431464_j31576599561039_3_alg».proof.Proof.Gen.Kernel.Points
import proofs.«431464_j31576599561039_3_alg».proof.Proof.Gen.Kernel.Frame
import proofs.«431464_j31576599561039_3_alg».proof.Proof.Gen.KernelIdeal
import proofs.«431464_j31576599561039_3_alg».proof.Proof.Gen.KernelIdeal.Skeleton
import proofs.«431464_j31576599561039_3_alg».proof.Proof.Gen.KernelIdeal.Launch
import proofs.«431464_j31576599561039_3_alg».proof.Proof.Gen.KernelIdeal.Points
import proofs.«431464_j31576599561039_3_alg».proof.Proof.Gen.KernelIdeal.Frame
import proofs.«431464_j31576599561039_3_alg».proof.Proof.Gen.ReferenceIdeal
import proofs.«431464_j31576599561039_3_alg».proof.Proof.Gen.Pre_finite_inputs
import proofs.«431464_j31576599561039_3_alg».proof.Proof.Gen.KernelIdeal.Value
import proofs.«431464_j31576599561039_3_alg».proof.Proof.Gen.ReferenceIdeal.Run
import proofs.«431464_j31576599561039_3_alg».proof.Proof.Gen.ReferenceIdeal.Read
import proofs.«431464_j31576599561039_3_alg».proof.Proof.RowsTimesMatrix
import proofs.«431464_j31576599561039_3_alg».proof.Proof.BlockProduct
import proofs.«431464_j31576599561039_3_alg».proof.Proof.KernelArray
import proofs.«431464_j31576599561039_3_alg».proof.Proof.ReferenceProduct
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on `x` and `p`, the kernel's output array and the reference's result both end at
    `x · p`: the kernel's by its blocks, the reference's because its one operation is that product. -/
theorem algebraic : Cert.algebraic_KernelIdeal_ReferenceIdeal := by
  intro m ρ m' ρ' _ hagree
  refine ⟨fun c => Cert.RowsTimesMatrix.product
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefProduct.dot_eq_product _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
